-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000 : Shape := ⟨2, ![64, 100000]⟩
abbrev S_ : Shape := ⟨0, ![]⟩

class Facts : Prop where
  bcast_S_S64x100000 : S_.BroadcastsInDim S64x100000 (![] : Fin 0 → Fin S64x100000.rank)
  reducesTo_S64x100000_S_d0_1 : S64x100000.ReducesTo [0, 1] S_
  h_S_ : 0 < S_.numel

variable [Facts]

def fn {F : FTy → Type} [FloatOps F] (main_arg0 : FVec F S64x100000 .f32) (main_arg1 : FVec F S64x100000 .f32) : IVec S_ 1 :=
  let main_v0 : FVec F S64x100000 .f32 := Host.absf main_arg0
  let main_cst : FVec F S_ .f32 := constant S_ .f32 0x7F800000#32
  let main_v1 : FVec F S64x100000 .f32 := broadcastInDim S64x100000 ![] bcast_S_S64x100000 main_cst
  let main_v2 : IVec S64x100000 1 := cmpf .olt main_v0 main_v1
  let main_c : IVec S_ 1 := constantI S_ 1 1#1
  let main_v3 : IVec S_ 1 := (fun x v => Host.reduce IntOp.andi x v reducesTo_S64x100000_S_d0_1 h_S_) main_v2 main_c
  let main_v4 : FVec F S64x100000 .f32 := Host.absf main_arg1
  let main_cst_0 : FVec F S_ .f32 := constant S_ .f32 0x7F800000#32
  let main_v5 : FVec F S64x100000 .f32 := broadcastInDim S64x100000 ![] bcast_S_S64x100000 main_cst_0
  let main_v6 : IVec S64x100000 1 := cmpf .olt main_v4 main_v5
  let main_c_1 : IVec S_ 1 := constantI S_ 1 1#1
  let main_v7 : IVec S_ 1 := (fun x v => Host.reduce IntOp.andi x v reducesTo_S64x100000_S_d0_1 h_S_) main_v6 main_c_1
  let main_v8 : IVec S_ 1 := andi main_v3 main_v7
  main_v8
-- ==== Kernel.lean ====
abbrev S64x100000 : Shape := ⟨2, ![64, 100000]⟩
abbrev S8x100000 : Shape := ⟨2, ![8, 100000]⟩
abbrev S8 : Shape := ⟨1, ![8]⟩
abbrev S8x1 : Shape := ⟨2, ![8, 1]⟩

abbrev nBuf : Space → Nat
  | .hbm => 3
  | .vmem => 6
  | .smem => 0
  | _ => 0

abbrev bufTy : (tb : Table) → Fin (tcTables nBuf tb) → BufTy
  | .hbm, ⟨0, _⟩ => ⟨S64x100000, .f32⟩
  | .hbm, ⟨1, _⟩ => ⟨S64x100000, .f32⟩
  | .hbm, ⟨2, _⟩ => ⟨S64x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x100000, .f32⟩
  | .local _ .vmem, ⟨5, _⟩ => ⟨S8x100000, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x100000_S8x100000_0_0 : ∀ a, (![0, 0] : Fin 2 → Nat) a + S8x100000.size a ≤ S8x100000.size a
  h_S8x100000 : 0 < S8x100000.numel
  reduces_S8x100000_S8 : S8x100000.Reduces [1] S8
  shapeCasts_S8_S8x1 : S8.ShapeCasts S8x1
  broadcasts_S8x1_S8x100000 : S8x1.Broadcasts S8x100000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x100000.size a ≤ S64x100000.size a
  hwx0_0 : ∀ i : grid0.Coords, EltTy.bits .f32 = 32 ∨ (Rect.block (s := S64x100000) S8x100000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x100000.size a ≤ S64x100000.size a
  hwx0_1 : ∀ i : grid0.Coords, EltTy.bits .f32 = 32 ∨ (Rect.block (s := S64x100000) S8x100000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x100000.size a ≤ S64x100000.size a
  hwx0_2 : ∀ i : grid0.Coords, EltTy.bits .f32 = 32 ∨ (Rect.block (s := S64x100000) S8x100000.size (cc0_transform_2 i) (hinb0_2 i)).WholeWords (EltTy.packing .f32)

variable [Facts₀]

abbrev win0_0 : Pipeline.Window sig grid0 :=
  Pipeline.Window.ofSpec (Memref.whole main_arg0) S8x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x100000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x100000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x100000 : Shape := ⟨2, ![64, 100000]⟩
abbrev S_ : Shape := ⟨0, ![]⟩
abbrev S64 : Shape := ⟨1, ![64]⟩
abbrev S64x1 : Shape := ⟨2, ![64, 1]⟩

abbrev nBuf : Space → Nat
  | .hbm => 20
  | .vmem => 0
  | .smem => 0
  | _ => 0

abbrev bufTy : (tb : Table) → Fin (tcTables nBuf tb) → BufTy
  | .hbm, ⟨0, _⟩ => ⟨S64x100000, .f32⟩
  | .hbm, ⟨1, _⟩ => ⟨S64x100000, .f32⟩
  | .hbm, ⟨2, _⟩ => ⟨S64x100000, .f32⟩
  | .hbm, ⟨3, _⟩ => ⟨S_, .f32⟩
  | .hbm, ⟨4, _⟩ => ⟨S64x100000, .f32⟩
  | .hbm, ⟨5, _⟩ => ⟨S64x100000, .f32⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64x1, .f32⟩
  | .hbm, ⟨12, _⟩ => ⟨S64x100000, .f32⟩
  | .hbm, ⟨13, _⟩ => ⟨S64x100000, .f32⟩
  | .hbm, ⟨14, _⟩ => ⟨S64x100000, .f32⟩
  | .hbm, ⟨15, _⟩ => ⟨S_, .f32⟩
  | .hbm, ⟨16, _⟩ => ⟨S64, .f32⟩
  | .hbm, ⟨17, _⟩ => ⟨S64x1, .f32⟩
  | .hbm, ⟨18, _⟩ => ⟨S64x100000, .f32⟩
  | .hbm, ⟨19, _⟩ => ⟨S64x100000, .f32⟩
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S64x100000 : S_.BroadcastsInDim S64x100000 (![] : Fin 0 → Fin S64x100000.rank)
  reducesTo_S64x100000_S64_d1 : S64x100000.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x100000_0_1 : S64x1.BroadcastsInDim S64x100000 (![0, 1] : Fin 2 → Fin S64x100000.rank)

variable [Facts₀]

class Facts : Prop extends Facts₀ where

variable [Facts]
-- ==== Proof.ShiftLaw.lean ====
/-
  The mathematics both programs share, stated on the extended reals with no program in sight.

  A row `a : ι → ℝ` of finite scores over a non-empty index set, and any real `M` (the reference subtracts the row's
  maximum; the law does not care which real it is):

      exp (a j - M) / (0 + ∑ k, exp (a k - M))  =  exp (a j) * (1 / ∑ k, exp (a k)).

  Over the reals both sides are `exp (a j) / ∑ k, exp (a k)`: `exp (a - M) = exp a / exp M`, the common positive factor
  `1 / exp M` leaves the quotient, and a sum of exponentials over a non-empty set is positive, so neither quotient
  divides by zero. On the extended reals the law NEEDS the scores to be real: with `M = ⊥` the left side is `⊤ / ⊤`.
  So the file also shows that a maximum taken from `⊥` over a non-empty row of reals is a real, and that a sum of
  reals on the extended reals is the real sum. Last, the four float words the two programs spell: `1.0`, `0.0`, `-∞`, `+∞`.
-/
import Idealize.ShloMosaic.PureOps.Ideal
import Idealize.ShloMosaic.Lib.ValueIdx

noncomputable section

open scoped BigOperators

namespace Cert.Softmax

open Idealize.ShloMosaic Idealize.ShloMosaic.ValueIdx

/-! ## The words -/

/-- The word of `1.0` denotes `1`. -/
theorem ofBits_one : Ideal.ofBits .f32 0x3F800000#32 = 1 := by
  simp [Ideal.ofBits, Ideal.ieee, -EReal.coe_mul]; norm_num

/-- The word of `+0.0` denotes `0`. -/
theorem ofBits_zero : Ideal.ofBits .f32 0x00000000#32 = 0 := by
  simp [Ideal.ofBits, Ideal.ieee]

/-- The word of `-∞` denotes the bottom of the extended reals. -/
theorem ofBits_neg_inf : Ideal.ofBits .f32 0xFF800000#32 = ⊥ := by
  simp [Ideal.ofBits, Ideal.ieee]

/-- The word of `+∞` denotes the top of the extended reals. -/
theorem ofBits_pos_inf : Ideal.ofBits .f32 0x7F800000#32 = ⊤ := by
  simp [Ideal.ofBits, Ideal.ieee]

/-! ## Sums and maxima of reals inside the extended reals -/

/-- A finite sum of reals, taken on the extended reals, is the real sum. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The maximum of two reals, taken on the extended reals, is a real. -/
theorem max_coe_real (r M : ℝ) : ∃ N : ℝ, max ((r : ℝ) : EReal) ((M : ℝ) : EReal) = (N : EReal) := by
  rcases le_total r M with h | h
  · exact ⟨M, max_eq_right (EReal.coe_le_coe_iff.2 h)⟩
  · exact ⟨r, max_eq_left (EReal.coe_le_coe_iff.2 h)⟩

/-- A maximum folded from `⊥` over a finite set of reals is still `⊥` (the set was empty) or a real. -/
theorem fold_max_bot_or_real {ι : Type} (f : ι → ℝ) (s : Finset ι) :
    s.fold max (⊥ : EReal) (fun k => ((f k : ℝ) : EReal)) = ⊥
      ∨ ∃ M : ℝ, s.fold max (⊥ : EReal) (fun k => ((f k : ℝ) : EReal)) = (M : EReal) := by
  classical
  induction s using Finset.induction_on with
  | empty => exact Or.inl Finset.fold_empty
  | insert a s ha ih =>
    right
    rw [Finset.fold_insert ha]
    rcases ih with h | ⟨M, h⟩
    · exact ⟨f a, by rw [h]; exact max_eq_left bot_le⟩
    · rw [h]; exact max_coe_real (f a) M

/-- Over a NON-EMPTY index set that maximum is a real: it is at least the row's first score, which is not `⊥`. -/
theorem fold_max_real {ι : Type} [Fintype ι] [Nonempty ι] (f : ι → ℝ) :
    ∃ M : ℝ, (Finset.univ : Finset ι).fold max (⊥ : EReal) (fun k => ((f k : ℝ) : EReal)) = (M : EReal) := by
  rcases fold_max_bot_or_real f Finset.univ with h | h
  · exfalso
    obtain ⟨k0⟩ := (inferInstance : Nonempty ι)
    have hle : ((f k0 : ℝ) : EReal) ≤ (Finset.univ : Finset ι).fold max (⊥ : EReal) (fun k => ((f k : ℝ) : EReal)) :=
      (Finset.le_fold_max _).2 (Or.inr ⟨k0, Finset.mem_univ _, le_rfl⟩)
    rw [h] at hle
    exact EReal.coe_ne_bot _ (le_bot_iff.1 hle)
  · exact h

/-! ## The law -/

/-- Shifting every score of a non-empty real row by one real `M` before the exponentials changes neither the
    normalised row nor — written as the kernel writes it — the product with the reciprocal of the unshifted sum. -/
theorem shift_law {ι : Type} [Fintype ι] [Nonempty ι] (a : ι → ℝ) (M : ℝ) (j : ι) :
    Ideal.div (Ideal.exp (((a j : ℝ) : EReal) - ((M : ℝ) : EReal)))
        (0 + ∑ k, Ideal.exp (((a k : ℝ) : EReal) - ((M : ℝ) : EReal)))
      = Ideal.exp ((a j : ℝ) : EReal) * Ideal.div 1 (∑ k, Ideal.exp ((a k : ℝ) : EReal)) := by
  have hpos1 : 0 < ∑ k, Real.exp (a k - M) := Finset.sum_pos (fun k _ => Real.exp_pos _) Finset.univ_nonempty
  have hpos2 : 0 < ∑ k, Real.exp (a k) := Finset.sum_pos (fun k _ => Real.exp_pos _) Finset.univ_nonempty
  simp only [← EReal.coe_sub, Ideal.exp_coe, coe_sum, zero_add]
  rw [Ideal.div_coe hpos1.ne', Ideal.div_coe hpos2.ne', one_mul, ← EReal.coe_mul, ← EReal.coe_mul]
  refine congrArg (fun r : ℝ => (r : EReal)) ?_
  have hsum : ∑ k, Real.exp (a k - M) = (∑ k, Real.exp (a k)) / Real.exp M := by
    rw [Finset.sum_div]; exact Finset.sum_congr rfl fun k _ => Real.exp_sub _ _
  have hM : Real.exp M ≠ 0 := (Real.exp_pos M).ne'
  rw [hsum, Real.exp_sub]
  field_simp

/-! ## The function both programs compute -/

/-- Row-wise softmax of `x + g` over a [64, 100000] array, as the kernel spells it: entry `(r, q)` is
    `exp (x r q + g r q)` times the reciprocal of the sum over the row `r` of those exponentials. -/
def rows (x g : (⟨2, ![64, 100000]⟩ : Shape).Idx → EReal) : (⟨2, ![64, 100000]⟩ : Shape).Idx → EReal :=
  fun i => Ideal.exp (x i + g i)
    * Ideal.div 1 (∑ k : Fin 100000, Ideal.exp (x (ix2 (i 0) k) + g (ix2 (i 0) k)))

end Cert.Softmax

end
-- ==== Proof.Finite.lean ====
/-
  What the precondition says: every entry of both inputs is a real number.

  The printed predicate is `all (|x| < +∞) ∧ all (|g| < +∞)`. It being all ones gives, entry by entry,
  `max v (-v) < ⊤` on the extended reals, which fails at `⊤` (the maximum is `⊤`) and at `⊥` (its negation is `⊤`):
  so `v` is a real.
-/
import proofs.«146824_g1580547969666_cont_sun_c4_142_3_alg».proof.Pre_finite_inputs
import proofs.«146824_g1580547969666_cont_sun_c4_142_3_alg».proof.Proof.Gen.Pre_finite_inputs
import proofs.«146824_g1580547969666_cont_sun_c4_142_3_alg».proof.Proof.ShiftLaw
import Idealize.ShloMosaic.PureOps.Ideal
import Idealize.ShloMosaic.Lib.ReduceAll
import Idealize.ShloMosaic.Lib.ValueIdx
import Idealize.ShloMosaic.Lib.Pipeline.Value

noncomputable section

namespace Cert.Softmax

open Idealize.ShloMosaic Idealize.ShloMosaic.ValueIdx

/-- An extended real whose absolute value is below `⊤` is a real. -/
theorem real_of_abs_lt_top (v : EReal) (h : Ideal.cmp .olt (max v (-v)) ⊤ = 1#1) : ∃ r : ℝ, v = (r : EReal) := by
  induction v using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- Under the precondition every entry of `x` and every entry of `g` is a real. -/
theorem reals_of_pre [Cert.Pre_finite_inputs.Facts]
    (x g : FVec Ideal Cert.Pre_finite_inputs.S64x100000 .f32)
    (h : Cert.Pre_finite_inputs.fn (F := Ideal) x g = fun _ => 1#1) :
    (∀ i, ∃ r : ℝ, x i = (r : EReal)) ∧ (∀ i, ∃ r : ℝ, g i = (r : EReal)) := by
  have h0 := congrFun h ix0
  dsimp only [Cert.Pre_finite_inputs.fn] at h0
  obtain ⟨hx, hg⟩ := IntOp.andi_eq_one.1 h0
  refine ⟨fun i => ?_, fun i => ?_⟩
  · have e : Ideal.cmp .olt (max (x i) (-(x i))) (Ideal.ofBits .f32 0x7F800000#32) = 1#1 :=
      Host.reduce_andi_all _ _ _ _ _ hx i
    rw [ofBits_pos_inf] at e
    exact real_of_abs_lt_top _ e
  · have e : Ideal.cmp .olt (max (g i) (-(g i))) (Ideal.ofBits .f32 0x7F800000#32) = 1#1 :=
      Host.reduce_andi_all _ _ _ _ _ hg i
    rw [ofBits_pos_inf] at e
    exact real_of_abs_lt_top _ e

end Cert.Softmax

end
-- ==== Proof.RefRows.lean ====
/-
  The reference, read row by row: on inputs whose entries are all real it computes `rows`.

  Along row `p` the scores are `s k = x p k + g p k` (the division by the temperature `1.0` changes nothing). The
  reference takes the row's maximum `M` from `-∞` — a real, the row being non-empty and real —, forms
  `exp (s k - M)`, sums those from `0.0`, and divides. The shift law says that this is
  `exp (s q) * (1 / ∑ k, exp (s k))`, which is `rows x g` at `(p, q)`.
-/
import proofs.«146824_g1580547969666_cont_sun_c4_142_3_alg».proof.Proof.Gen.ReferenceIdeal.Read
import proofs.«146824_g1580547969666_cont_sun_c4_142_3_alg».proof.Proof.ShiftLaw
import Idealize.ShloMosaic.PureOps.Reduce
import Idealize.ShloMosaic.PureOps.Ideal.Laws
import Idealize.ShloMosaic.Lib.ValueIdx

noncomputable section

open scoped BigOperators

namespace Cert.Softmax.Ref

open Cert.ReferenceIdeal Cert.ReferenceIdeal.Gen Cert.ReferenceIdeal.Read
open Idealize.ShloMosaic Idealize.ShloMosaic.ValueIdx Cert.Softmax

/-- Dividing an extended real by the word `1.0` leaves it unchanged. -/
theorem div_one_word (v : EReal) : Ideal.div v (Ideal.ofBits .f32 0x3F800000#32) = v := by
  rw [ofBits_one, ← EReal.coe_one, Ideal.div_coe one_ne_zero]
  simp

variable (x g : (⟨S64x100000, .f32⟩ : BufTy).Contents (Elt Ideal))

/-- The scores: `(x + g) / 1.0` at an index is `x + g` there. -/
theorem scores_apply (i : S64x100000.Idx) : val_main_v2 (F := Ideal) x g i = x i + g i := by
  rw [val_main_v2_apply, val_main_v0_apply, val_main_v1_apply, val_main_cst_apply]
  exact div_one_word _

/-- The row maximum, as the fold of `max` from `⊥` over the row's scores. -/
theorem rowmax_apply (p : Fin 64) :
    val_main_v5 (F := Ideal) x g (ix1 p)
      = (Finset.univ : Finset (Fin 100000)).fold max (⊥ : EReal) (fun k => x (ix2 p k) + g (ix2 p k)) := by
  rw [val_main_v5_apply, val_main_v4_apply, val_main_cst_1_apply]
  show max (Ideal.ofBits .f32 0xFF800000#32) (val_main_v3 (F := Ideal) x g (ix1 p)) = _
  rw [ofBits_neg_inf, max_eq_right bot_le]
  unfold val_main_v3
  rw [Host.reduce_eq_fold_single _ _ _ reducesTo_S64x100000_S64_d1 (by decide) h_S_ (ix1 p)]
  show Finset.fold max (Ideal.ofBits .f32 0xFF800000#32) _ Finset.univ = _
  rw [ofBits_neg_inf]
  refine Finset.fold_congr (fun k _ => ?_)
  show val_main_v2 (F := Ideal) x g (Shape.Reduces.lift _ (ix1 p) k) = _
  rw [scores_apply]
  have e : Shape.Reduces.lift (s := S64x100000) (t := S64) (a := 1) (by decide) (ix1 p) k = ix2 p k :=
    funext fun a => Fin.ext (by match a with | ⟨0, _⟩ => rfl | ⟨1, _⟩ => rfl)
  rw [e]
  rfl

/-- The exponentials of the shifted scores. -/
theorem shifted_apply (p : Fin 64) (k : Fin 100000) :
    val_main_v9 (F := Ideal) x g (ix2 p k)
      = Ideal.exp (x (ix2 p k) + g (ix2 p k) - val_main_v5 (F := Ideal) x g (ix1 p)) := by
  rw [val_main_v9_apply, val_main_v8_apply, val_main_v7_apply, val_main_v6_apply, scores_apply]
  have e : idx_main_v6 (idx_main_v7 (ix2 p k)) = ix1 p :=
    funext fun a => Fin.ext (by match a with | ⟨0, _⟩ => rfl)
  rw [e]
  rfl

/-- The row's sum of those exponentials, taken from `0`. -/
theorem rowsum_apply (p : Fin 64) :
    val_main_v10 (F := Ideal) x g (ix1 p)
      = 0 + ∑ k : Fin 100000, Ideal.exp (x (ix2 p k) + g (ix2 p k) - val_main_v5 (F := Ideal) x g (ix1 p)) := by
  rw [val_main_v10_apply, val_main_cst_2_apply]
  show Ideal.ofBits .f32 0x00000000#32 + _ = _
  rw [ofBits_zero]
  refine congrArg (0 + ·) (Finset.sum_congr rfl fun k _ => ?_)
  have e : idx_main_v10 (ix1 p) k = ix2 p k :=
    funext fun a => Fin.ext (by match a with | ⟨0, _⟩ => rfl | ⟨1, _⟩ => rfl)
  rw [e, shifted_apply]

/-- On inputs whose entries are all real, the reference's result is `rows x g`: at `(p, q)` the quotient of
    `exp (s q - M)` by `0 + ∑ k, exp (s k - M)`, with `M` the real maximum of row `p`, is by the shift law
    `exp (s q) * (1 / ∑ k, exp (s k))`. -/
theorem ref_eq_rows (hx : ∀ i, ∃ r : ℝ, x i = (r : EReal)) (hg : ∀ i, ∃ r : ℝ, g i = (r : EReal)) :
    val_main_v13 (F := Ideal) x g = rows x g := by
  choose xr hxr using hx
  choose gr hgr using hg
  funext i
  obtain ⟨p, q, rfl⟩ : ∃ (p : Fin 64) (q : Fin 100000), i = ix2 p q := ⟨i 0, i 1, eq_ix2 i⟩
  obtain ⟨M, hM⟩ := fold_max_real (fun k : Fin 100000 => xr (ix2 p k) + gr (ix2 p k))
  have hmax : val_main_v5 (F := Ideal) x g (ix1 p) = (M : EReal) := by
    rw [rowmax_apply, ← hM]
    refine Finset.fold_congr (fun k _ => ?_)
    rw [hxr, hgr, EReal.coe_add]
  have e12 : idx_main_v11 (idx_main_v12 (ix2 p q)) = ix1 p :=
    funext fun a => Fin.ext (by match a with | ⟨0, _⟩ => rfl)
  rw [val_main_v13_apply, val_main_v12_apply, val_main_v11_apply, e12, rowsum_apply, shifted_apply, hmax]
  show Ideal.div _ _ = _
  simp only [hxr, hgr, ← EReal.coe_add]
  rw [shift_law (fun k : Fin 100000 => xr (ix2 p k) + gr (ix2 p k)) M q]
  unfold rows
  simp only [hxr, hgr, ← EReal.coe_add]

end Cert.Softmax.Ref

end
-- ==== Proof.KernelRows.lean ====
/-
  The kernel's output array is `rows` of its two argument arrays.

  The grid has 8 points; point `t` stages rows `8t … 8t+7` of both inputs whole (all 100000 columns) and writes the
  same eight rows of the output. Inside a block the body adds the two inputs, multiplies by `1.0`, exponentiates, sums
  each row over its 100000 lanes, and multiplies each exponential by `1.0` over its row's sum. A row of the block IS a
  row of the array, so the lane sum is the array row's sum and what point `t` writes is block `t` of `rows`; the
  eight blocks cover the 64 rows, so the array ends holding `rows`.
-/
import proofs.«146824_g1580547969666_cont_sun_c4_142_3_alg».proof.Proof.Gen.KernelIdeal.Value
import proofs.«146824_g1580547969666_cont_sun_c4_142_3_alg».proof.Proof.ShiftLaw
import Idealize.ShloMosaic.PureOps.Ideal.Laws
import Idealize.ShloMosaic.Lib.ValueIdx
import Idealize.ShloMosaic.Lib.Pipeline.Value

noncomputable section

open scoped BigOperators

namespace Cert.Softmax.Ker

open Cert.KernelIdeal Cert.KernelIdeal.Gen Cert.KernelIdeal.Value
open Idealize.ShloMosaic Idealize.ShloMosaic.TcCoe Idealize.SL.Sem Idealize.ShloMosaic.ValueIdx Cert.Softmax
open Idealize.ShloMosaic.Pipeline (Dat)

/-- A lane sum of an [8, 100000] block at row `r` is the sum over the row's 100000 entries. -/
theorem lanesum_apply (src : FVec Ideal S8x100000 .f32) (h : S8x100000.Reduces [1] S8) (hφ : FKind.Formats .f32)
    (hacc : (0x00000000#32 : BitVec 32) = FKind.add.neutral .f32 hφ) (r : Fin 8) :
    multiReduction .add [1] S8 src 0x00000000#32 h hφ hacc (ix1 r) = ∑ k : Fin 100000, src (ix2 r k) := by
  refine (Ideal.multiReduction_add_single src _ h hφ hacc (ix1 r)).trans ?_
  refine Finset.sum_congr rfl fun k _ => congrArg src ?_
  exact funext fun a => Fin.ext (by match a with | ⟨0, _⟩ => rfl | ⟨1, _⟩ => rfl)

/-- What the body leaves in a block, at an index, for any two blocks `P0`, `P1` of the inputs. -/
theorem block_apply (P0 P1 : Vec Ideal S8x100000 .f32) (y : S8x100000.Idx) :
    E2 (F := Ideal) P0 P1 y
      = Ideal.exp (P0 y + P1 y) * Ideal.div 1 (∑ k : Fin 100000, Ideal.exp (P0 (ix2 (y 0) k) + P1 (ix2 (y 0) k))) := by
  have h0 : ix2_0 y = y := funext fun a => Fin.ext (by match a with | ⟨0, _⟩ => rfl | ⟨1, _⟩ => rfl)
  have h1 : ix2_1 y = y := funext fun a => Fin.ext (by match a with | ⟨0, _⟩ => rfl | ⟨1, _⟩ => rfl)
  have h2 : ix2_2 y = ix1 (y 0) := funext fun a => Fin.ext (by match a with | ⟨0, _⟩ => rfl)
  dsimp only [E2]
  rw [h0, h1, h2]
  simp only [Ideal.mulf_def, Ideal.exp_def, Ideal.addf_def, Ideal.divf_def, Ideal.ofBits_def, ofBits_one, mul_one]
  refine congrArg (fun d => Ideal.exp (P0 y + P1 y) * Ideal.div 1 d) ?_
  refine (lanesum_apply _ _ _ _ (y 0)).trans ?_
  refine Finset.sum_congr rfl fun k _ => ?_
  simp only [exp, mulf, addf, broadcast, Ideal.mulf_def, Ideal.exp_def, Ideal.addf_def, mul_one]

/-- If the two blocks are the arrays `X`, `G` read through a map `e` of block indices to array indices that sends a
    block's row onto an array's row (same column), then what the body leaves at `y` is `rows X G` at `e y`. -/
theorem block_is_rows (X G : S64x100000.Idx → EReal) (P0 P1 : Vec Ideal S8x100000 .f32)
    (e : S8x100000.Idx → S64x100000.Idx) (h0 : ∀ y, P0 y = X (e y)) (h1 : ∀ y, P1 y = G (e y))
    (he : ∀ (y : S8x100000.Idx) (k : Fin 100000), e (ix2 (y 0) k) = ix2 ((e y) 0) k) (y : S8x100000.Idx) :
    E2 (F := Ideal) P0 P1 y = rows X G (e y) := by
  rw [block_apply]
  unfold rows
  simp only [h0, h1, he]
  rfl

variable (m : (ℓ : Loc nD τ sig) → Buf (Elt Ideal) ℓ) (ρ : Dev nD → PrngReg)

/-- The body's one rectangle starts at the block's origin. -/
theorem origin_zero : (![0, 0] : Fin 2 → Nat) = fun _ => 0 := funext fun a => by fin_cases a <;> rfl

/-- At every grid point the three windows sit at the same block: row block `t`, the one column block. -/
theorem windows_aligned : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 7 ∧ win0_2.index t (1 : Fin 2) = 0 :=
  (by decide +kernel : ∀ t : Fin grid0.N, _)

/-- Each of the eight row blocks is some grid point's. -/
theorem row_block_reached : ∀ q : Fin 8, ∃ t : Fin cfg0.N, win0_2.index t = ![q.val, 0] :=
  (by decide +kernel : ∀ q : Fin 8, ∃ t : Fin grid0.N, win0_2.index t = ![q.val, 0])

/-- What point `t` writes back is block `t` of `rows` of the argument arrays. -/
theorem point_writes_rows (c : Dev nD) (t : Fin cfg0.N) :
    (dats m 0 c).flushed 2 t
      = ((cfg0.win 2).blk t).view.read (Elt Ideal) (rows (V m c main_arg0) (V m c main_arg1)) := by
  rw [flushed2]
  unfold out0_2
  simp only [View.ld_unit_zero (S := S8x100000) origin_zero]
  obtain ⟨e0, e1, e2, e3, e4, e5⟩ := windows_aligned t
  funext j
  show (View.canon [(⟨r0_0, k0_pay1 (iblk m c 0 t) (iblk m c 1 t)⟩ : View.Piece (Elt Ideal) S8x100000 .f32)]
      : Vec Ideal S8x100000 .f32) j
    = rows (V m c main_arg0) (V m c main_arg1) (((cfg0.win 2).blk t).view.emb j)
  refine (canon2_eq (F := Ideal) (iblk m c 0 t) (iblk m c 1 t) j).trans ?_
  refine block_is_rows (V m c main_arg0) (V m c main_arg1) (iblk m c 0 t) (iblk m c 1 t)
    (((cfg0.win 2).blk t).view.emb) ?_ ?_ ?_ j
  · intro y
    show V m c main_arg0 (((cfg0.win 0).blk t).view.emb y) = _
    refine congrArg _ (funext fun a => Fin.ext ?_)
    match a with
    | ⟨0, _⟩ => show win0_0.index t (0 : Fin 2) * 8 + 1 * (y 0).val = win0_2.index t (0 : Fin 2) * 8 + 1 * (y 0).val; omega
    | ⟨1, _⟩ => show win0_0.index t (1 : Fin 2) * 100000 + 1 * (y 1).val = win0_2.index t (1 : Fin 2) * 100000 + 1 * (y 1).val; omega
  · intro y
    show V m c main_arg1 (((cfg0.win 1).blk t).view.emb y) = _
    refine congrArg _ (funext fun a => Fin.ext ?_)
    match a with
    | ⟨0, _⟩ => show win0_1.index t (0 : Fin 2) * 8 + 1 * (y 0).val = win0_2.index t (0 : Fin 2) * 8 + 1 * (y 0).val; omega
    | ⟨1, _⟩ => show win0_1.index t (1 : Fin 2) * 100000 + 1 * (y 1).val = win0_2.index t (1 : Fin 2) * 100000 + 1 * (y 1).val; omega
  · intro y k
    refine funext fun a => Fin.ext ?_
    match a with
    | ⟨0, _⟩ => rfl
    | ⟨1, _⟩ => show win0_2.index t (1 : Fin 2) * 100000 + 1 * k.val = k.val; omega

/-- An index of the array is in point `t`'s block iff each coordinate is in the block's range on its axis. -/
theorem mem_row_block (t : Fin cfg0.N) (i : S64x100000.Idx) :
    i ∈ ((cfg0.win 2).blk t).view.set ↔ ∀ a : Fin 2, win0_2.index t a * S8x100000.size a ≤ (i a).val
      ∧ (i a).val < win0_2.index t a * S8x100000.size a + S8x100000.size a := by
  show i ∈ ((View.whole main_v0).slice (win0_2.rect t)).set ↔ _
  rw [View.set_slice_whole, Rect.mem_set_unit]
  exact Iff.rfl

/-- Every index of the [64, 100000] array lies in some point's block: row `r` in the block of point `r / 8`. -/
theorem row_blocks_cover (i : S64x100000.Idx) :
    ∃ t : Fin cfg0.N, (cfg0.win 2).flush t = true ∧ i ∈ ((cfg0.win 2).blk t).view.set := by
  have hi0 : (i 0).val < 64 := (i 0).isLt
  have hi1 : (i 1).val < 100000 := (i 1).isLt
  obtain ⟨t, ht⟩ := row_block_reached ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_row_block]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 100000 ≤ (i 1).val ∧ (i 1).val < win0_2.index t (1 : Fin 2) * 100000 + 100000; omega

/-- The output array after the run is `rows` of the argument arrays. -/
theorem array_is_rows (c : Dev nD) :
    (dats m 0 c).arrAt 2 cfg0.N
      = rows (m ((c : Thread nD τ).loc main_arg0)) (m ((c : Thread nD τ).loc main_arg1)) :=
  (dats m 0 c).arrAt_eq_of_cover 2 (rows (V m c main_arg0) (V m c main_arg1))
    (fun t _ => point_writes_rows m c t) row_blocks_cover

/-- The kernel's run: the result array ends at `rows` of the arguments, the arguments unchanged. -/
theorem run_rows : θ_run defs (onTc (τ := τ) (main (F := Ideal))) ⟨m, fun _ => 0, ρ⟩ fun r => ∀ c : Dev nD,
      r.2.mem ((c : Thread nD τ).loc main_v0)
        = rows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array_is_rows m c), (h c).2⟩) (run_blocks m ρ)

end Cert.Softmax.Ker

end
-- ==== Proof.lean ====
/-
  Row-wise softmax of `logits + gumbel` over a [64, 100000] array, at temperature 1: the kernel against `jax.nn.softmax`.

  THE KERNEL walks eight blocks of eight whole rows. In a block it forms `e = exp ((x + g) * 1.0)`, sums each row of `e`
  over its 100000 lanes, and stores `e * (1.0 / sum)`. It does not subtract the row's maximum first.
  THE REFERENCE forms `s = (x + g) / 1.0`, the row maximum `M` of `s` (from `-∞`), `u = exp (s - M)`, the row sum of `u`
  (from `0.0`), and `u / sum`.

  On the extended reals both are `rows x g` (Proof/ShiftLaw.lean): entry `(r, q)` is `exp (x r q + g r q)` times the
  reciprocal of `∑ k, exp (x r k + g r k)`.
  * The kernel's array is `rows` for ANY inputs (Proof/KernelRows.lean): multiplying by `1` changes nothing, a block's row
    is an array's row, and the eight blocks cover the array.
  * The reference is `rows` where every input entry is a REAL (Proof/RefRows.lean): then each row's maximum is a real
    `M`, and `exp (s - M) / (0 + ∑ exp (s_k - M)) = exp s * (1 / ∑ exp s_k)` because the positive factor `exp (-M)`
    cancels. With an infinite entry it would not (for `M = ⊤` the left side is `0 / 0`), so this is where the
    precondition is used: it says exactly that every entry is a real (Proof/Finite.lean).

  The three frames are the generated ones (the reference's is its generated run with the result dropped); the ideal pass
  rewrote nothing, so the idealization claim is `True`.
-/
import proofs.«146824_g1580547969666_cont_sun_c4_142_3_alg».proof.Defs
import proofs.«146824_g1580547969666_cont_sun_c4_142_3_alg».proof.Proof.Gen.Kernel
import proofs.«146824_g1580547969666_cont_sun_c4_142_3_alg».proof.Proof.Gen.Kernel.Skeleton
import proofs.«146824_g1580547969666_cont_sun_c4_142_3_alg».proof.Proof.Gen.Kernel.Launch
import proofs.«146824_g1580547969666_cont_sun_c4_142_3_alg».proof.Proof.Gen.Kernel.Points
import proofs.«146824_g1580547969666_cont_sun_c4_142_3_alg».proof.Proof.Gen.Kernel.Frame
import proofs.«146824_g1580547969666_cont_sun_c4_142_3_alg».proof.Proof.Gen.KernelIdeal
import proofs.«146824_g1580547969666_cont_sun_c4_142_3_alg».proof.Proof.Gen.KernelIdeal.Skeleton
import proofs.«146824_g1580547969666_cont_sun_c4_142_3_alg».proof.Proof.Gen.KernelIdeal.Launch
import proofs.«146824_g1580547969666_cont_sun_c4_142_3_alg».proof.Proof.Gen.KernelIdeal.Points
import proofs.«146824_g1580547969666_cont_sun_c4_142_3_alg».proof.Proof.Gen.KernelIdeal.Frame
import proofs.«146824_g1580547969666_cont_sun_c4_142_3_alg».proof.Proof.Gen.ReferenceIdeal
import proofs.«146824_g1580547969666_cont_sun_c4_142_3_alg».proof.Proof.Gen.Pre_finite_inputs
import proofs.«146824_g1580547969666_cont_sun_c4_142_3_alg».proof.Proof.Gen.KernelIdeal.Value
import proofs.«146824_g1580547969666_cont_sun_c4_142_3_alg».proof.Proof.Gen.ReferenceIdeal.Run
import proofs.«146824_g1580547969666_cont_sun_c4_142_3_alg».proof.Proof.Gen.ReferenceIdeal.Read
import proofs.«146824_g1580547969666_cont_sun_c4_142_3_alg».proof.Proof.ShiftLaw
import proofs.«146824_g1580547969666_cont_sun_c4_142_3_alg».proof.Proof.Finite
import proofs.«146824_g1580547969666_cont_sun_c4_142_3_alg».proof.Proof.RefRows
import proofs.«146824_g1580547969666_cont_sun_c4_142_3_alg».proof.Proof.KernelRows
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs too: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on real-valued arguments, both programs end with `rows` of the arguments in their
    result arrays: the kernel's by its blocks, the reference's by the shift law on each row. -/
theorem algebraic : Cert.algebraic_KernelIdeal_ReferenceIdeal := by
  intro m ρ m' ρ' hpre hagree
  refine ⟨_, Cert.Softmax.Ker.run_rows m ρ, ?_⟩
  refine (θ_run Cert.ReferenceIdeal.defs _ _).mono (fun _ h c => ⟨(h c).1.trans ?_, (h c).2⟩)
    (Cert.ReferenceIdeal.Value.run (F := Ideal) m' ρ')
  obtain ⟨hx, hg⟩ := Cert.Softmax.reals_of_pre _ _ (hpre c)
  rw [Cert.ReferenceIdeal.Read.val_main_v13_eq, (hagree c).1, (hagree c).2]
  exact Cert.Softmax.Ref.ref_eq_rows _ _ hx hg

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
